-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x4096 : Shape := ⟨3, ![8, 2048, 4096]⟩
abbrev S4096x4096 : Shape := ⟨2, ![4096, 4096]⟩
abbrev S4096 : Shape := ⟨1, ![4096]⟩
abbrev S_ : Shape := ⟨0, ![]⟩

class Facts : Prop where
  bcast_S_S8x2048x4096 : S_.BroadcastsInDim S8x2048x4096 (![] : Fin 0 → Fin S8x2048x4096.rank)
  reducesTo_S8x2048x4096_S_d0_1_2 : S8x2048x4096.ReducesTo [0, 1, 2] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S8x2048x4096 .f32) (main_arg1 : FVec F S4096x4096 .f32) (main_arg2 : FVec F S4096 .f32) : IVec S_ 1 :=
  let main_v0 : FVec F S8x2048x4096 .f32 := Host.absf main_arg0
  let main_cst : FVec F S_ .f32 := constant S_ .f32 0x7F800000#32
  let main_v1 : FVec F S8x2048x4096 .f32 := broadcastInDim S8x2048x4096 ![] bcast_S_S8x2048x4096 main_cst
  let main_v2 : IVec S8x2048x4096 1 := cmpf .olt main_v0 main_v1
  let main_c : IVec S_ 1 := constantI S_ 1 1#1
  let main_v3 : IVec S_ 1 := (fun x v => Host.reduce IntOp.andi x v reducesTo_S8x2048x4096_S_d0_1_2 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  main_v13
-- ==== Kernel.lean ====
abbrev S8x2048x4096 : Shape := ⟨3, ![8, 2048, 4096]⟩
abbrev S4096x4096 : Shape := ⟨2, ![4096, 4096]⟩
abbrev S4096 : Shape := ⟨1, ![4096]⟩
abbrev S16384x4096 : Shape := ⟨2, ![16384, 4096]⟩
abbrev S512x1024 : Shape := ⟨2, ![512, 1024]⟩
abbrev S1024x1024 : Shape := ⟨2, ![1024, 1024]⟩
abbrev S1024 : Shape := ⟨1, ![1024]⟩
abbrev S1x1024 : Shape := ⟨2, ![1, 1024]⟩

abbrev nBuf : Space → Nat
  | .hbm => 6
  | .vmem => 9
  | .smem => 0
  | _ => 0

abbrev bufTy : (tb : Table) → Fin (tcTables nBuf tb) → BufTy
  | .hbm, ⟨0, _⟩ => ⟨S8x2048x4096, .f32⟩
  | .hbm, ⟨1, _⟩ => ⟨S4096x4096, .f32⟩
  | .hbm, ⟨2, _⟩ => ⟨S4096, .f32⟩
  | .hbm, ⟨3, _⟩ => ⟨S16384x4096, .f32⟩
  | .hbm, ⟨4, _⟩ => ⟨S16384x4096, .f32⟩
  | .hbm, ⟨5, _⟩ => ⟨S8x2048x4096, .f32⟩
  | .local _ .vmem, ⟨0, _⟩ => ⟨S512x1024, .f32⟩
  | .local _ .vmem, ⟨1, _⟩ => ⟨S512x1024, .f32⟩
  | .local _ .vmem, ⟨2, _⟩ => ⟨S1024x1024, .f32⟩
  | .local _ .vmem, ⟨3, _⟩ => ⟨S1024x1024, .f32⟩
  | .local _ .vmem, ⟨4, _⟩ => ⟨S1024, .f32⟩
  | .local _ .vmem, ⟨5, _⟩ => ⟨S1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | _, _ => ⟨S8x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![32, 4, 4], ![false, false, false]⟩

def k0_cond2 (i : grid0.Coords) : BitVec 1 :=
  let arg2 : BitVec 32 := BitVec.ofNat 32 (i 2).val
  let c3_i32 : BitVec 32 := 3#32
  let v19 : BitVec 1 := Scalar.cmpi .eq arg2 c3_i32
  let v20 : BitVec 32 := Scalar.extui v19
  let c0_i32_11 : BitVec 32 := 0#32
  let v21 : BitVec 1 := Scalar.cmpi .ne v20 c0_i32_11
  v21

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

class Facts₀ : Prop where
  shapeCasts_S8x2048x4096_S16384x4096 : S8x2048x4096.ShapeCasts S16384x4096
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  bitsLt_bf16_f32 : FTy.bits .bf16 < FTy.bits .f32
  inb_S1024x1024_S1024x1024_0_0 : ∀ a, (![0, 0] : Fin 2 → Nat) a + S1024x1024.size a ≤ S1024x1024.size a
  h_S1024x1024 : 0 < S1024x1024.numel
  inb_S1024_S1024_0 : ∀ a, (![0] : Fin 1 → Nat) a + S1024.size a ≤ S1024.size a
  h_S1024 : 0 < S1024.numel
  shapeCasts_S1024_S1x1024 : S1024.ShapeCasts S1x1024
  broadcasts_S1x1024_S512x1024 : S1x1024.Broadcasts S512x1024
  shapeCasts_S16384x4096_S8x2048x4096 : S16384x4096.ShapeCasts S8x2048x4096
  dot_S512x1024_S1024x1024_S512x1024_1_1_0_0_n_n_wf : DotDims.WF S512x1024 S1024x1024 S512x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S16384x4096.size a
  hwx0_0 : ∀ i : grid0.Coords, EltTy.bits .f32 = 32 ∨ (Rect.block (s := S16384x4096) S512x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S4096x4096.size a
  hwx0_1 : ∀ i : grid0.Coords, EltTy.bits .f32 = 32 ∨ (Rect.block (s := S4096x4096) S1024x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024.size a ≤ S4096.size a
  hwx0_2 : ∀ i : grid0.Coords, EltTy.bits .f32 = 32 ∨ (Rect.block (s := S4096) S1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x1024.size a ≤ S16384x4096.size a
  hwx0_3 : ∀ i : grid0.Coords, EltTy.bits .f32 = 32 ∨ (Rect.block (s := S16384x4096) S512x1024.size (cc0_transform_3 i) (hinb0_3 i)).WholeWords (EltTy.packing .f32)

variable [Facts₀]

def dot_S512x1024_S1024x1024_S512x1024_1_1_0_0_n_n : DotDims S512x1024 S1024x1024 S512x1024 where
  lhsContracting := [1]
  rhsContracting := [1]
  lhsNonContracting := [0]
  rhsNonContracting := [0]
  lhsBatch := []
  rhsBatch := []
  wf := dot_S512x1024_S1024x1024_S512x1024_1_1_0_0_n_n_wf

abbrev win0_0 : Pipeline.Window sig grid0 :=
  Pipeline.Window.ofSpec (Memref.whole main_v0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S512x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S8x2048x4096 : Shape := ⟨3, ![8, 2048, 4096]⟩
abbrev S4096x4096 : Shape := ⟨2, ![4096, 4096]⟩
abbrev S4096 : Shape := ⟨1, ![4096]⟩
abbrev S_ : Shape := ⟨0, ![]⟩
abbrev S1x1x4096 : Shape := ⟨3, ![1, 1, 4096]⟩

abbrev nBuf : Space → Nat
  | .hbm => 18
  | .vmem => 0
  | .smem => 0
  | _ => 0

abbrev bufTy : (tb : Table) → Fin (tcTables nBuf tb) → BufTy
  | .hbm, ⟨0, _⟩ => ⟨S8x2048x4096, .f32⟩
  | .hbm, ⟨1, _⟩ => ⟨S4096x4096, .f32⟩
  | .hbm, ⟨2, _⟩ => ⟨S4096, .f32⟩
  | .hbm, ⟨3, _⟩ => ⟨S_, .f32⟩
  | .hbm, ⟨4, _⟩ => ⟨S4096x4096, .f32⟩
  | .hbm, ⟨5, _⟩ => ⟨S4096x4096, .i1⟩
  | .hbm, ⟨6, _⟩ => ⟨S_, .f32⟩
  | .hbm, ⟨7, _⟩ => ⟨S_, .f32⟩
  | .hbm, ⟨8, _⟩ => ⟨S4096x4096, .f32⟩
  | .hbm, ⟨9, _⟩ => ⟨S4096x4096, .f32⟩
  | .hbm, ⟨10, _⟩ => ⟨S4096x4096, .f32⟩
  | .hbm, ⟨11, _⟩ => ⟨S4096x4096, .f32⟩
  | .hbm, ⟨12, _⟩ => ⟨S4096x4096, .f32⟩
  | .hbm, ⟨13, _⟩ => ⟨S4096x4096, .f32⟩
  | .hbm, ⟨14, _⟩ => ⟨S8x2048x4096, .f32⟩
  | .hbm, ⟨15, _⟩ => ⟨S1x1x4096, .f32⟩
  | .hbm, ⟨16, _⟩ => ⟨S8x2048x4096, .f32⟩
  | .hbm, ⟨17, _⟩ => ⟨S8x2048x4096, .f32⟩
  | _, _ => ⟨S8x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_cst_1 : Ref sig .tc := ⟨.hbm, 7, rfl⟩
abbrev main_call0_v0 : Ref sig .tc := ⟨.hbm, 8, rfl⟩
abbrev main_call0_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩

abbrev nD : Nat := 1
abbrev τ : Topo := Topo.v7x

variable {F : FTy → Type} [FloatOps F]

class Facts₀ : Prop where
  bcast_S_S4096x4096 : S_.BroadcastsInDim S4096x4096 (![] : Fin 0 → Fin S4096x4096.rank)
  bcast_S4096_S1x1x4096_2 : S4096.BroadcastsInDim S1x1x4096 (![2] : Fin 1 → Fin S1x1x4096.rank)
  bcast_S1x1x4096_S8x2048x4096_0_1_2 : S1x1x4096.BroadcastsInDim S8x2048x4096 (![0, 1, 2] : Fin 3 → Fin S8x2048x4096.rank)
  dot_S8x2048x4096_S4096x4096_S8x2048x4096_2_1_01_0_n_n_wf : DotDims.WF S8x2048x4096 S4096x4096 S8x2048x4096 [2] [1] [0, 1] [0] [] []

variable [Facts₀]

def dot_S8x2048x4096_S4096x4096_S8x2048x4096_2_1_01_0_n_n : DotDims S8x2048x4096 S4096x4096 S8x2048x4096 where
  lhsContracting := [2]
  rhsContracting := [1]
  lhsNonContracting := [0, 1]
  rhsNonContracting := [0]
  lhsBatch := []
  rhsBatch := []
  wf := dot_S8x2048x4096_S4096x4096_S8x2048x4096_2_1_01_0_n_n_wf

class Facts : Prop extends Facts₀ where

variable [Facts]
-- ==== Proof.Pieces.lean ====
/-
  What one run of the kernel body leaves behind, case by case, as pure terms of what it loaded.  The body keeps a
  running block `acc` in scratch memory: at the first column block it zeroes `acc` and reads the zero back, at every
  column block it stores `acc + x_blk · sgn(w_blk)ᵀ`, and at the last column block it also stores `acc + bias` into the
  output block.  Each store writes the whole buffer through the rectangle at offset zero, so the buffer ends holding
  that store's value, and a load after a store reads the stored value.
-/
import proofs.«175344_j81063212745415_1_alg».proof.Defs
import proofs.«175344_j81063212745415_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.BinValue

open Cert.KernelIdeal Cert.KernelIdeal.Gen

variable {F : FTy → Type} [FloatOps F]

/-- The offset of a whole-block rectangle of rank two is zero on both axes. -/
theorem zero_off2 : (![0, 0] : Fin 2 → Nat) = fun _ => 0 := funext fun a => by fin_cases a <;> rfl
/-- The offset of a whole-block rectangle of rank one is zero. -/
theorem zero_off1 : (![0] : Fin 1 → Nat) = fun _ => 0 := funext fun a => by fin_cases a <;> rfl

/-- First column block: the running block is zeroed, then holds `0 + x_blk · sgn(w_blk)ᵀ`. -/
theorem acc_first (c : Dev nD) (i : grid0.Coords) (a3 : Memref sig .tc .vmem S512x1024 .f32) (h3 : a3.IsWhole) (a4 : Memref sig .tc .vmem S1024x1024 .f32) (h4 : a4.IsWhole) (a5 : Memref sig .tc .vmem S1024 .f32) (h5 : a5.IsWhole) (a6 : Memref sig .tc .vmem S512x1024 .f32) (h6 : a6.IsWhole) (a7 : Memref sig .tc .vmem S512x1024 .f32) (h7 : a7.IsWhole) (hc0 : cond0_0 i) (hc1 : ¬cond0_1 i)
    (x0 : Vec F S512x1024 .f32) (x1 : Vec F S1024x1024 .f32) (x2 : Vec F S1024 .f32) :
    sout0_A_0 c i a3 h3 a4 h4 a5 h5 a6 h6 a7 h7 hc0 hc1 x0 x1 x2 = k0_pay2 x0 x1 (k0_pay1 (F := F)) := by
  unfold sout0_A_0
  rw [View.read_writes_eq_canon _ _ _ (scover0_A_0 c i a3 h3 a4 h4 a5 h5 a6 h6 a7 h7 hc0 hc1 x0 x1 x2)]
  unfold kernelRun0_A
  dsimp only
  sl_unfold_words
  rw [View.canon_cons_unit_zero (S := S512x1024) zero_off2]
  simp only [View.readAt_eq_ld, h3.read_unread, h4.read_unread, View.ld_unit_zero (S := S512x1024) zero_off2,
    View.ld_unit_zero (S := S1024x1024) zero_off2, View.readCov_unit_zero (S := S512x1024) _ zero_off2]

/-- A middle column block: the running block `acc` becomes `acc + x_blk · sgn(w_blk)ᵀ`. -/
theorem acc_middle (c : Dev nD) (i : grid0.Coords) (a3 : Memref sig .tc .vmem S512x1024 .f32) (h3 : a3.IsWhole) (a4 : Memref sig .tc .vmem S1024x1024 .f32) (h4 : a4.IsWhole) (a5 : Memref sig .tc .vmem S1024 .f32) (h5 : a5.IsWhole) (a6 : Memref sig .tc .vmem S512x1024 .f32) (h6 : a6.IsWhole) (a7 : Memref sig .tc .vmem S512x1024 .f32) (h7 : a7.IsWhole) (hc0 : ¬cond0_0 i) (hc1 : ¬cond0_1 i)
    (x0 : Vec F S512x1024 .f32) (x1 : Vec F S1024x1024 .f32) (x2 : Vec F S1024 .f32) (xs0 : Vec F S512x1024 .f32) :
    sout0_B_0 c i a3 h3 a4 h4 a5 h5 a6 h6 a7 h7 hc0 hc1 x0 x1 x2 xs0 = k0_pay2 x0 x1 xs0 := by
  unfold sout0_B_0
  rw [View.read_writes_eq_canon _ _ _ (scover0_B_0 c i a3 h3 a4 h4 a5 h5 a6 h6 a7 h7 hc0 hc1 x0 x1 x2 xs0)]
  unfold kernelRun0_B
  dsimp only
  sl_unfold_words
  rw [View.canon_unit_zero zero_off2]
  simp only [View.readAt_eq_ld, h3.read_unread, h4.read_unread, h7.read_unread, View.ld_unit_zero (S := S512x1024) zero_off2,
    View.ld_unit_zero (S := S1024x1024) zero_off2]

/-- The last column block updates the running block in the same way, -/
theorem acc_last (c : Dev nD) (i : grid0.Coords) (a3 : Memref sig .tc .vmem S512x1024 .f32) (h3 : a3.IsWhole) (a4 : Memref sig .tc .vmem S1024x1024 .f32) (h4 : a4.IsWhole) (a5 : Memref sig .tc .vmem S1024 .f32) (h5 : a5.IsWhole) (a6 : Memref sig .tc .vmem S512x1024 .f32) (h6 : a6.IsWhole) (a7 : Memref sig .tc .vmem S512x1024 .f32) (h7 : a7.IsWhole) (hc0 : ¬cond0_0 i) (hc1 : cond0_1 i)
    (x0 : Vec F S512x1024 .f32) (x1 : Vec F S1024x1024 .f32) (x2 : Vec F S1024 .f32) (xs0 : Vec F S512x1024 .f32) :
    sout0_C_0 c i a3 h3 a4 h4 a5 h5 a6 h6 a7 h7 hc0 hc1 x0 x1 x2 xs0 = k0_pay2 x0 x1 xs0 := by
  unfold sout0_C_0
  rw [View.read_writes_eq_canon _ _ _ (scover0_C_0 c i a3 h3 a4 h4 a5 h5 a6 h6 a7 h7 hc0 hc1 x0 x1 x2 xs0)]
  unfold kernelRun0_C
  dsimp only
  sl_unfold_words
  rw [View.canon_unit_zero zero_off2]
  simp only [View.readAt_eq_ld, h3.read_unread, h4.read_unread, h7.read_unread, View.ld_unit_zero (S := S512x1024) zero_off2,
    View.ld_unit_zero (S := S1024x1024) zero_off2]

/-- and stores the updated running block plus the bias row into the output block. -/
theorem out_last (c : Dev nD) (i : grid0.Coords) (a3 : Memref sig .tc .vmem S512x1024 .f32) (h3 : a3.IsWhole) (a4 : Memref sig .tc .vmem S1024x1024 .f32) (h4 : a4.IsWhole) (a5 : Memref sig .tc .vmem S1024 .f32) (h5 : a5.IsWhole) (a6 : Memref sig .tc .vmem S512x1024 .f32) (h6 : a6.IsWhole) (a7 : Memref sig .tc .vmem S512x1024 .f32) (h7 : a7.IsWhole) (hc0 : ¬cond0_0 i) (hc1 : cond0_1 i)
    (x0 : Vec F S512x1024 .f32) (x1 : Vec F S1024x1024 .f32) (x2 : Vec F S1024 .f32) (xs0 : Vec F S512x1024 .f32) :
    out0_C_3 c i a3 h3 a4 h4 a5 h5 a6 h6 a7 h7 hc0 hc1 x0 x1 x2 xs0 = k0_pay3 (k0_pay2 x0 x1 xs0) x2 := by
  unfold out0_C_3
  rw [View.read_writes_eq_canon _ _ _ (cover0_C_3 c i a3 h3 a4 h4 a5 h5 a6 h6 a7 h7 hc0 hc1 x0 x1 x2 xs0)]
  unfold kernelRun0_C
  dsimp only
  sl_unfold_words
  rw [View.canon_unit_zero zero_off2]
  simp only [View.readAt_eq_ld, h3.read_unread, h4.read_unread, h5.read_unread, h7.read_unread,
    View.ld_unit_zero (S := S512x1024) zero_off2, View.ld_unit_zero (S := S1024x1024) zero_off2,
    View.ld_unit_zero (S := S1024) zero_off1, View.readCov_unit_zero (S := S512x1024) _ zero_off2]

end Cert.KernelIdeal.BinValue

end
-- ==== Proof.BinSpec.lean ====
/-
  The mathematics both programs compute, stated once over literal shapes and proved over the extended reals:
  a linear layer whose weight is replaced by its sign, `out[r, o] = (∑ k, x[r, k] · sgn w[o, k]) + bias[o]`, where
  `sgn v` is `+1` when `v ≥ 0` and `-1` otherwise.  Three facts carry the whole comparison:
  the straight-through form `w + (sgn w - w)` is `sgn w` whenever `w` is a real number (the only place finiteness
  of the weight is used); a contraction over 4096 columns is the sum over four blocks of 1024 columns; and a
  running sum over the first blocks extends by one block at a time.
-/
import Idealize.ShloMosaic.PureOps.Ideal
import Idealize.ShloMosaic.Lib.ValueIdx
import Mathlib.Data.EReal.Operations
import Mathlib.Algebra.BigOperators.Fin
import Mathlib.Logic.Equiv.Fin.Basic

noncomputable section

open scoped BigOperators

namespace Cert.BinLinear

open Idealize.ShloMosaic Idealize.ShloMosaic.ValueIdx

/-- The binarizer on one extended real: the word `1.0` where `v ≥ 0`, the word `-1.0` elsewhere.  The compare and
    the two words are the programs' own, so neither is ever evaluated. -/
def sgn (v : Ideal .f32) : Ideal .f32 :=
  Scalar.select (FloatOps.cmpf (F := Ideal) .oge v (Ideal.ofBits .f32 0x00000000#32))
    (Ideal.ofBits .f32 0x3F800000#32) (Ideal.ofBits .f32 0xBF800000#32)

/-- Adding a real number `w` to `s - w` gives `s` back, for every extended real `s`: the real cancels. -/
theorem add_sub_self_of_real (w s : EReal) (hw : w ≠ ⊤) (hw' : w ≠ ⊥) : w + (s - w) = s := by
  lift w to ℝ using ⟨hw, hw'⟩
  rw [sub_eq_add_neg, add_comm s, ← add_assoc, ← EReal.coe_neg, ← EReal.coe_add, add_neg_cancel, EReal.coe_zero,
    zero_add]

/-- The layer on the flattened input `[16384, 4096]`. -/
def layer2 (x : (⟨2, ![16384, 4096]⟩ : Shape).Idx → EReal) (w : (⟨2, ![4096, 4096]⟩ : Shape).Idx → EReal)
    (b : (⟨1, ![4096]⟩ : Shape).Idx → EReal) : (⟨2, ![16384, 4096]⟩ : Shape).Idx → EReal :=
  fun j => (∑ k : Fin 4096, x (ix2 (j 0) k) * sgn (w (ix2 (j 1) k))) + b (ix1 (j 1))

/-- The layer on the input as given, `[8, 2048, 4096]`: the same sum, batch and sequence coordinates kept apart. -/
def layer3 (x : (⟨3, ![8, 2048, 4096]⟩ : Shape).Idx → EReal) (w : (⟨2, ![4096, 4096]⟩ : Shape).Idx → EReal)
    (b : (⟨1, ![4096]⟩ : Shape).Idx → EReal) : (⟨3, ![8, 2048, 4096]⟩ : Shape).Idx → EReal :=
  fun j => (∑ k : Fin 4096, x (ix3 (j 0) (j 1) k) * sgn (w (ix2 (j 2) k))) + b (ix1 (j 2))

/-- The flattened layer at row `r`, output feature `o`. -/
theorem layer2_apply (x : (⟨2, ![16384, 4096]⟩ : Shape).Idx → EReal) (w : (⟨2, ![4096, 4096]⟩ : Shape).Idx → EReal)
    (b : (⟨1, ![4096]⟩ : Shape).Idx → EReal) (r : Fin 16384) (o : Fin 4096) :
    layer2 x w b (ix2 r o) = (∑ k : Fin 4096, x (ix2 r k) * sgn (w (ix2 o k))) + b (ix1 o) := rfl

/-- The layer at batch `a`, position `s`, output feature `o`. -/
theorem layer3_apply (x : (⟨3, ![8, 2048, 4096]⟩ : Shape).Idx → EReal) (w : (⟨2, ![4096, 4096]⟩ : Shape).Idx → EReal)
    (b : (⟨1, ![4096]⟩ : Shape).Idx → EReal) (a : Fin 8) (s : Fin 2048) (o : Fin 4096) :
    layer3 x w b (ix3 a s o) = (∑ k : Fin 4096, x (ix3 a s k) * sgn (w (ix2 o k))) + b (ix1 o) := rfl

/-- A sum over 4096 columns is the sum, over four column blocks, of each block's 1024 columns. -/
theorem sum_four_blocks {M : Type*} [AddCommMonoid M] (f : ℕ → M) :
    ∑ kb ∈ Finset.range 4, ∑ k : Fin 1024, f (1024 * kb + k.val) = ∑ k : Fin 4096, f k.val := by
  rw [Finset.sum_range fun kb => ∑ k : Fin 1024, f (1024 * kb + k.val)]
  rw [show (∑ k : Fin 4096, f k.val) = ∑ k : Fin (4 * 1024), f k.val from rfl,
    ← Equiv.sum_comp (finProdFinEquiv (m := 4) (n := 1024)) fun k => f k.val, Fintype.sum_prod_type]
  refine Finset.sum_congr rfl fun a _ => Finset.sum_congr rfl fun c _ => ?_
  show f (1024 * a.val + c.val) = f (c.val + 1024 * a.val)
  rw [Nat.add_comm]

end Cert.BinLinear

end
-- ==== Proof.Payload.lean ====
/-
  The kernel body's three stored values read at one entry `(p, q)` of a block, over the extended reals.
  The zeroing store is the zero word everywhere.  The update stores, at `(p, q)`, the old running entry plus the inner
  product of row `p` of the input block with row `q` of the binarized weight block: the body contracts the second axis of
  both operands, so the weight block enters transposed, and narrowing to bf16 is the identity on extended reals.  The
  final store adds entry `q` of the bias block to every row.
-/
import proofs.«175344_j81063212745415_1_alg».proof.Defs
import proofs.«175344_j81063212745415_1_alg».proof.Proof.Gen.KernelIdeal.Skeleton
import proofs.«175344_j81063212745415_1_alg».proof.Proof.BinSpec
import Idealize.ShloMosaic.Lib.Pipeline.Value
import Idealize.ShloMosaic.Lib.ValueIdx
import Idealize.ShloMosaic.Lib.ValueLayout
import Idealize.ShloMosaic.PureOps.Ideal.Laws

noncomputable section

open scoped BigOperators
open Idealize.ShloMosaic Idealize.ShloMosaic.TcCoe Idealize.ShloMosaic.ValueIdx Idealize.ShloMosaic.Pipeline

namespace Cert.KernelIdeal.BinValue

open Cert.KernelIdeal Cert.KernelIdeal.Gen Cert.BinLinear

/-- The left operand's row coordinate is the output's row coordinate. -/
theorem lhs_row (i : S512x1024.Idx) (q : dot_S512x1024_S1024x1024_S512x1024_1_1_0_0_n_n.contr.Idx) :
    (dot_S512x1024_S1024x1024_S512x1024_1_1_0_0_n_n.lhsIdx i q 0).val = (i 0).val := by
  unfold DotDims.lhsIdx
  rw [dif_neg (show ¬(0 : Fin S512x1024.rank) ∈ dot_S512x1024_S1024x1024_S512x1024_1_1_0_0_n_n.lhsBatch by decide), dif_pos (show (0 : Fin S512x1024.rank) ∈ dot_S512x1024_S1024x1024_S512x1024_1_1_0_0_n_n.lhsNonContracting by decide)]
  rfl
/-- The left operand's column coordinate is the contracted coordinate. -/
theorem lhs_col (i : S512x1024.Idx) (q : dot_S512x1024_S1024x1024_S512x1024_1_1_0_0_n_n.contr.Idx) :
    (dot_S512x1024_S1024x1024_S512x1024_1_1_0_0_n_n.lhsIdx i q 1).val = (q ⟨0, by decide⟩).val :=
  dot_S512x1024_S1024x1024_S512x1024_1_1_0_0_n_n.lhsIdx_val_of_single rfl i q
/-- The right operand's row coordinate is the output's column coordinate: the weight block enters transposed. -/
theorem rhs_row (i : S512x1024.Idx) (q : dot_S512x1024_S1024x1024_S512x1024_1_1_0_0_n_n.contr.Idx) :
    (dot_S512x1024_S1024x1024_S512x1024_1_1_0_0_n_n.rhsIdx i q 0).val = (i 1).val := by
  unfold DotDims.rhsIdx
  rw [dif_neg (show ¬(0 : Fin S1024x1024.rank) ∈ dot_S512x1024_S1024x1024_S512x1024_1_1_0_0_n_n.rhsBatch by decide), dif_pos (show (0 : Fin S1024x1024.rank) ∈ dot_S512x1024_S1024x1024_S512x1024_1_1_0_0_n_n.rhsNonContracting by decide)]
  rfl
/-- The right operand's column coordinate is the contracted coordinate. -/
theorem rhs_col (i : S512x1024.Idx) (q : dot_S512x1024_S1024x1024_S512x1024_1_1_0_0_n_n.contr.Idx) :
    (dot_S512x1024_S1024x1024_S512x1024_1_1_0_0_n_n.rhsIdx i q 1).val = (q ⟨0, by decide⟩).val :=
  dot_S512x1024_S1024x1024_S512x1024_1_1_0_0_n_n.rhsIdx_val_of_single rfl i q

/-- The zeroing store: the zero word at every entry. -/
theorem zero_apply (j : S512x1024.Idx) : (k0_pay1 (F := Ideal)) j = Ideal.ofBits .f32 0x00000000#32 := by
  unfold k0_pay1
  rw [shapeCast_self]
  rfl

/-- The update at `(p, q)`: the old entry plus `∑ k, x_blk[p, k] · sgn w_blk[q, k]`. -/
theorem update_apply (v3 : FVec Ideal S512x1024 .f32) (v6 : FVec Ideal S1024x1024 .f32) (v13 : FVec Ideal S512x1024 .f32)
    (p : Fin 512) (q : Fin 1024) :
    k0_pay2 (F := Ideal) v3 v6 v13 (ix2 p q) = v13 (ix2 p q) + ∑ k : Fin 1024, v3 (ix2 p k) * sgn (v6 (ix2 q k)) := by
  unfold k0_pay2
  simp only [shapeCast_self, matmul]
  rw [addf_apply, Ideal.matmul_constant_zero_apply,
    ← Equiv.sum_comp (contrEquiv1 dot_S512x1024_S1024x1024_S512x1024_1_1_0_0_n_n 1024 rfl rfl).symm]
  refine congrArg (v13 (ix2 p q) + ·) (Finset.sum_congr rfl fun k _ => ?_)
  have hk := contrEquiv1_symm_val dot_S512x1024_S1024x1024_S512x1024_1_1_0_0_n_n 1024 rfl rfl k
  have el : dot_S512x1024_S1024x1024_S512x1024_1_1_0_0_n_n.lhsIdx (ix2 p q) ((contrEquiv1 dot_S512x1024_S1024x1024_S512x1024_1_1_0_0_n_n 1024 rfl rfl).symm k) = ix2 p k := funext fun a => Fin.ext (by
    match a with
    | ⟨0, _⟩ => exact lhs_row _ _
    | ⟨1, _⟩ => exact (lhs_col _ _).trans hk)
  have er : dot_S512x1024_S1024x1024_S512x1024_1_1_0_0_n_n.rhsIdx (ix2 p q) ((contrEquiv1 dot_S512x1024_S1024x1024_S512x1024_1_1_0_0_n_n 1024 rfl rfl).symm k) = ix2 q k := funext fun a => Fin.ext (by
    match a with
    | ⟨0, _⟩ => exact rhs_row _ _
    | ⟨1, _⟩ => exact (rhs_col _ _).trans hk)
  rw [el, er]
  rfl

/-- The final store at `(p, q)`: the running entry plus bias entry `q`. -/
theorem biased_apply (v22 : FVec Ideal S512x1024 .f32) (v23 : FVec Ideal S1024 .f32) (p : Fin 512) (q : Fin 1024) :
    k0_pay3 (F := Ideal) v22 v23 (ix2 p q) = v22 (ix2 p q) + v23 (ix1 q) := by
  unfold k0_pay3
  rw [addf_apply]
  refine congrArg (v22 (ix2 p q) + ·) ?_
  refine (broadcastTo_apply _ broadcasts_S1x1024_S512x1024 (ix2 p q) (ix2 (0 : Fin 1) q) (fun a => ?_)).trans ?_
  · match a with
    | ⟨0, _⟩ => show (0 : Nat) = if (1 : Nat) = 1 then 0 else _; rw [if_pos rfl]
    | ⟨1, _⟩ => show q.val = if (1024 : Nat) = 1 then 0 else q.val; rw [if_neg (by decide)]
  · exact shapeCast_a_1a_apply v23 shapeCasts_S1024_S1x1024 (0 : Fin 1) q

end Cert.KernelIdeal.BinValue

end
-- ==== Proof.BlockSum.lean ====
/-
  The layer's entry `(r, o)` as the kernel accumulates it.  A grid point's blocks sit at offsets that are products
  and remainders of the point's position, so entries are named here by natural-number coordinates (an array read
  outside its extents is zero, which never happens in use).  Column block `kb` contributes
  `∑ k < 1024, x[r, 1024·kb + k] · sgn w[o, 1024·kb + k]`; the four contributions add up to the whole contraction,
  and with the bias entry that is the layer.
-/
import proofs.«175344_j81063212745415_1_alg».proof.Proof.BinSpec

noncomputable section

open scoped BigOperators

namespace Cert.BinLinear

open Idealize.ShloMosaic Idealize.ShloMosaic.ValueIdx

/-- A rank-2 array at natural-number coordinates. -/
def at2 {n0 n1 : ℕ} (A : (⟨2, ![n0, n1]⟩ : Shape).Idx → EReal) (r c : ℕ) : EReal :=
  if h : r < n0 ∧ c < n1 then A (ix2 ⟨r, h.1⟩ ⟨c, h.2⟩) else 0

/-- An entry named by an index is the entry at that index's coordinates. -/
theorem at2_of_idx {n0 n1 : ℕ} (A : (⟨2, ![n0, n1]⟩ : Shape).Idx → EReal) (j : (⟨2, ![n0, n1]⟩ : Shape).Idx) (r c : ℕ)
    (h0 : (j 0).val = r) (h1 : (j 1).val = c) : A j = at2 A r c := by
  subst h0 h1
  unfold at2
  rw [dif_pos ⟨idx2_lt0 j, idx2_lt1 j⟩]
  exact congrArg A (eq_ix2 j)

theorem at2_fin {n0 n1 : ℕ} (A : (⟨2, ![n0, n1]⟩ : Shape).Idx → EReal) (r : Fin n0) (c : Fin n1) :
    at2 A r.val c.val = A (ix2 r c) := (at2_of_idx A (ix2 r c) r.val c.val rfl rfl).symm

/-- A rank-1 array at a natural-number coordinate. -/
def at1 {n : ℕ} (A : (⟨1, ![n]⟩ : Shape).Idx → EReal) (r : ℕ) : EReal :=
  if h : r < n then A (ix1 ⟨r, h⟩) else 0

theorem at1_of_idx {n : ℕ} (A : (⟨1, ![n]⟩ : Shape).Idx → EReal) (j : (⟨1, ![n]⟩ : Shape).Idx) (r : ℕ)
    (h0 : (j 0).val = r) : A j = at1 A r := by
  subst h0
  unfold at1
  rw [dif_pos (show (j 0).val < n from (j 0).isLt)]
  exact congrArg A (eq_ix1 j)

theorem at1_fin {n : ℕ} (A : (⟨1, ![n]⟩ : Shape).Idx → EReal) (r : Fin n) : at1 A r.val = A (ix1 r) :=
  (at1_of_idx A (ix1 r) r.val rfl).symm

/-- Column block `kb`'s contribution to entry `(r, o)`. -/
def blockTerm (X : (⟨2, ![16384, 4096]⟩ : Shape).Idx → EReal) (W : (⟨2, ![4096, 4096]⟩ : Shape).Idx → EReal)
    (r o kb : ℕ) : EReal :=
  ∑ k : Fin 1024, at2 X r (1024 * kb + k.val) * sgn (at2 W o (1024 * kb + k.val))

/-- The four column blocks' contributions add up to the whole contraction. -/
theorem sum_blockTerm (X : (⟨2, ![16384, 4096]⟩ : Shape).Idx → EReal) (W : (⟨2, ![4096, 4096]⟩ : Shape).Idx → EReal)
    (r : Fin 16384) (o : Fin 4096) :
    ∑ kb ∈ Finset.range 4, blockTerm X W r.val o.val kb = ∑ k : Fin 4096, X (ix2 r k) * sgn (W (ix2 o k)) := by
  unfold blockTerm
  rw [sum_four_blocks fun n => at2 X r.val n * sgn (at2 W o.val n)]
  refine Finset.sum_congr rfl fun k _ => ?_
  rw [at2_fin, at2_fin]

/-- The layer's entry at an index with coordinates `(r, o)`: the four contributions plus the bias entry. -/
theorem layer2_nat (X : (⟨2, ![16384, 4096]⟩ : Shape).Idx → EReal) (W : (⟨2, ![4096, 4096]⟩ : Shape).Idx → EReal)
    (B : (⟨1, ![4096]⟩ : Shape).Idx → EReal) (j : (⟨2, ![16384, 4096]⟩ : Shape).Idx) (r o : ℕ)
    (h0 : (j 0).val = r) (h1 : (j 1).val = o) :
    layer2 X W B j = (∑ kb ∈ Finset.range 4, blockTerm X W r o kb) + at1 B o := by
  obtain ⟨r', o', rfl⟩ : ∃ (r' : Fin 16384) (o' : Fin 4096), j = ix2 r' o' := ⟨j 0, j 1, eq_ix2 j⟩
  change r'.val = r at h0
  change o'.val = o at h1
  subst h0 h1
  rw [layer2_apply, sum_blockTerm, at1_fin]

end Cert.BinLinear

end
-- ==== Proof.Blocks.lean ====
/-
  Where each grid point's blocks sit in the arrays.  The grid is `32 × 4 × 4` in row-major order, so the point at
  position `t` has row-block `t / 16`, output-feature block `(t / 4) % 4` and column block `t % 4`.  The input block is
  rows `512·(t/16) …` and columns `1024·(t%4) …` of the flattened input; the weight block is rows
  `1024·((t/4)%4) …` and the same columns of the weight; the bias block is entries `1024·((t/4)%4) …` of the bias.  The
  flattened input is the given input re-indexed in row-major order.
-/
import proofs.«175344_j81063212745415_1_alg».proof.Defs
import proofs.«175344_j81063212745415_1_alg».proof.Proof.Gen.KernelIdeal.Frame
import proofs.«175344_j81063212745415_1_alg».proof.Proof.BlockSum
import Idealize.ShloMosaic.Lib.Pipeline.Value
import Idealize.ShloMosaic.Lib.StableHlo.Run
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.KernelIdeal.BinValue

open Cert.KernelIdeal Cert.KernelIdeal.Gen Cert.BinLinear

variable (m : (ℓ : Loc nD τ sig) → Buf (Elt Ideal) ℓ)

/-- The flattened input, the weight and the bias as the region finds them. -/
abbrev xarr (c : Dev nD) : FVec Ideal S16384x4096 .f32 := V m c main_v0
abbrev warr (c : Dev nD) : FVec Ideal S4096x4096 .f32 := V m c main_arg1
abbrev barr (c : Dev nD) : FVec Ideal S4096 .f32 := V m c main_arg2
/-- The three input blocks at a grid point. -/
abbrev xblk (c : Dev nD) (t : Fin cfg0.N) : FVec Ideal S512x1024 .f32 := iblk m c 0 t
abbrev wblk (c : Dev nD) (t : Fin cfg0.N) : FVec Ideal S1024x1024 .f32 := iblk m c 1 t
abbrev bblk (c : Dev nD) (t : Fin cfg0.N) : FVec Ideal S1024 .f32 := iblk m c 2 t

/-- The block indices of the four windows at position `t`, decided over the grid. -/
theorem grid_index : ∀ t : Fin cfg0.N,
    win0_0.index t (0 : Fin 2) = t.val / 16 ∧ win0_0.index t (1 : Fin 2) = t.val % 4
    ∧ win0_1.index t (0 : Fin 2) = t.val / 4 % 4 ∧ win0_1.index t (1 : Fin 2) = t.val % 4
    ∧ win0_2.index t (0 : Fin 1) = t.val / 4 % 4
    ∧ win0_3.index t (0 : Fin 2) = t.val / 16 ∧ win0_3.index t (1 : Fin 2) = t.val / 4 % 4 :=
  (by decide +kernel : ∀ t : Fin grid0.N, _)

/-- Entry `(p, k)` of the input block at `t`. -/
theorem xblk_read (c : Dev nD) (t : Fin cfg0.N) (p : Fin 512) (k : Fin 1024) :
    xblk m c t (ix2 p k) = at2 (xarr m c) (512 * (t.val / 16) + p.val) (1024 * (t.val % 4) + k.val) := by
  obtain ⟨e0, e1, -⟩ := grid_index t
  show iblk m c 0 t (ix2 p k) = _
  unfold iblk
  rw [View.read_apply]
  refine at2_of_idx (n0 := 16384) (n1 := 4096) (xarr m c) _ _ _ ?_ ?_
  · show win0_0.index t (0 : Fin 2) * 512 + 1 * p.val = _
    rw [e0]; omega
  · show win0_0.index t (1 : Fin 2) * 1024 + 1 * k.val = _
    rw [e1]; omega

/-- Entry `(q, k)` of the weight block at `t`. -/
theorem wblk_read (c : Dev nD) (t : Fin cfg0.N) (q : Fin 1024) (k : Fin 1024) :
    wblk m c t (ix2 q k) = at2 (warr m c) (1024 * (t.val / 4 % 4) + q.val) (1024 * (t.val % 4) + k.val) := by
  obtain ⟨-, -, e2, e3, -⟩ := grid_index t
  show iblk m c 1 t (ix2 q k) = _
  unfold iblk
  rw [View.read_apply]
  refine at2_of_idx (n0 := 4096) (n1 := 4096) (warr m c) _ _ _ ?_ ?_
  · show win0_1.index t (0 : Fin 2) * 1024 + 1 * q.val = _
    rw [e2]; omega
  · show win0_1.index t (1 : Fin 2) * 1024 + 1 * k.val = _
    rw [e3]; omega

/-- Entry `q` of the bias block at `t`. -/
theorem bblk_read (c : Dev nD) (t : Fin cfg0.N) (q : Fin 1024) :
    bblk m c t (ix1 q) = at1 (barr m c) (1024 * (t.val / 4 % 4) + q.val) := by
  obtain ⟨-, -, -, -, e4, -⟩ := grid_index t
  show iblk m c 2 t (ix1 q) = _
  unfold iblk
  rw [View.read_apply]
  refine at1_of_idx (n := 4096) (barr m c) _ _ ?_
  show win0_2.index t (0 : Fin 1) * 1024 + 1 * q.val = _
  rw [e4]; omega

/-- The flattened input is the given input reshaped (the one host operation before the region). -/
theorem xarr_eq (c : Dev nD) :
    xarr m c = shapeCast S16384x4096 (m ((c : Thread nD τ).loc main_arg0)) shapeCasts_S8x2048x4096_S16384x4096 := by
  show StableHlo.after hostOps0 (fun b => m (c, b)) (Proc.devRef .tc main_v0) = _
  after_results
  rfl

/-- The weight and the bias reach the region as launched. -/
theorem warr_eq (c : Dev nD) : warr m c = m ((c : Thread nD τ).loc main_arg1) := V_main_arg1 m c
theorem barr_eq (c : Dev nD) : barr m c = m ((c : Thread nD τ).loc main_arg2) := V_main_arg2 m c

end Cert.KernelIdeal.BinValue

end
-- ==== Proof.Accum.lean ====
/-
  The running block across the grid.  Positions `4a, 4a+1, 4a+2, 4a+3` share their row block and output-feature
  block and walk the four column blocks; the running block is zeroed at `4a` and each position adds its column block's
  contribution.  So after position `n` entry `(p, q)` of the running block is the sum of the contributions of column
  blocks `0 … n % 4` to entry `(512·(n/16) + p, 1024·((n/4)%4) + q)` of the layer — by induction on `n` — and at a
  position `≡ 3 (mod 4)` the output block holds all four contributions plus the bias entry.
-/
import proofs.«175344_j81063212745415_1_alg».proof.Proof.Pieces
import proofs.«175344_j81063212745415_1_alg».proof.Proof.Payload
import proofs.«175344_j81063212745415_1_alg».proof.Proof.Blocks

noncomputable section

open scoped BigOperators
open Idealize.ShloMosaic Idealize.ShloMosaic.TcCoe Idealize.SL.Sem Idealize.ShloMosaic.ValueIdx
open Idealize.ShloMosaic.Pipeline (Dat)

namespace Cert.KernelIdeal.BinValue

open Cert.KernelIdeal Cert.KernelIdeal.Gen Cert.BinLinear

variable (m : (ℓ : Loc nD τ sig) → Buf (Elt Ideal) ℓ)

/-- The update at position `t` over any previous running block: entry `(p, q)` gains column block `t % 4`'s
    contribution. -/
theorem update_at (c : Dev nD) (t : Fin cfg0.N) (prev : FVec Ideal S512x1024 .f32) (p : Fin 512) (q : Fin 1024) :
    k0_pay2 (F := Ideal) (xblk m c t) (wblk m c t) prev (ix2 p q)
      = prev (ix2 p q) + blockTerm (xarr m c) (warr m c) (512 * (t.val / 16) + p.val) (1024 * (t.val / 4 % 4) + q.val) (t.val % 4) := by
  refine (update_apply (xblk m c t) (wblk m c t) prev p q).trans ?_
  unfold blockTerm
  refine congrArg (prev (ix2 p q) + ·) (Finset.sum_congr rfl fun k _ => ?_)
  rw [xblk_read, wblk_read]

/-- Moving one position along a group of four keeps the row and output-feature blocks and appends one column block. -/
theorem extend_sum (f : ℕ → ℕ → ℕ → EReal) (n : ℕ) (hne : ¬(n + 1) % 4 = 0) :
    (∑ kb ∈ Finset.range (n % 4 + 1), f (n / 16) (n / 4 % 4) kb) + f ((n + 1) / 16) ((n + 1) / 4 % 4) ((n + 1) % 4)
      = ∑ kb ∈ Finset.range ((n + 1) % 4 + 1), f ((n + 1) / 16) ((n + 1) / 4 % 4) kb := by
  have e1 : (n + 1) / 16 = n / 16 := by omega
  have e2 : (n + 1) / 4 % 4 = n / 4 % 4 := by omega
  have e3 : (n + 1) % 4 = n % 4 + 1 := by omega
  rw [e1, e2, e3]
  exact (Finset.sum_range_succ _ _).symm

/-- THE RUNNING BLOCK after position `n`: the contributions of column blocks `0 … n % 4`. -/
theorem acc_after (c : Dev nD) : ∀ (n : ℕ) (h : n < cfg0.N) (p : Fin 512) (q : Fin 1024),
    (outsAt0 m c n h).2 (ix2 p q)
      = ∑ kb ∈ Finset.range (n % 4 + 1),
          blockTerm (xarr m c) (warr m c) (512 * (n / 16) + p.val) (1024 * (n / 4 % 4) + q.val) kb
  | 0, h, p, q => by
    rw [outsAt0_A m c ⟨0, h⟩ rfl (by dsimp only; omega)]
    dsimp only
    refine (congrFun (acc_first (F := Ideal) c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) (ms0_3 ⟨0, h⟩) (hs0_3 ⟨0, h⟩) scM0_0 (Memref.isWhole_whole _) _ _ (xblk m c ⟨0, h⟩) (wblk m c ⟨0, h⟩) (bblk m c ⟨0, h⟩)) (ix2 p q)).trans ?_
    refine (update_at m c ⟨0, h⟩ (k0_pay1 (F := Ideal)) p q).trans ?_
    rw [zero_apply, Ideal.ofBits_zero_f32, zero_add]
    exact (Finset.sum_range_one _).symm
  | n + 1, h, p, q => by
    by_cases h0 : (n + 1) % 4 = 0
    · rw [outsAt0_A m c ⟨n + 1, h⟩ h0 (by dsimp only; omega)]
      dsimp only
      refine (congrFun (acc_first (F := Ideal) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) scM0_0 (Memref.isWhole_whole _) _ _ (xblk m c ⟨n + 1, h⟩) (wblk m c ⟨n + 1, h⟩) (bblk m c ⟨n + 1, h⟩)) (ix2 p q)).trans ?_
      refine (update_at m c ⟨n + 1, h⟩ (k0_pay1 (F := Ideal)) p q).trans ?_
      rw [zero_apply, Ideal.ofBits_zero_f32, zero_add]
      show blockTerm _ _ _ _ ((n + 1) % 4) = _
      rw [h0]
      exact (Finset.sum_range_one _).symm
    · have ih := acc_after c n (Nat.lt_of_succ_lt h) p q
      have step := extend_sum (fun a b kb => blockTerm (xarr m c) (warr m c) (512 * a + p.val) (1024 * b + q.val) kb) n h0
      by_cases h1 : (n + 1) % 4 = 3
      · rw [outsAt0_C m c ⟨n + 1, h⟩ h0 h1]
        dsimp only
        refine (congrFun (acc_last (F := Ideal) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) scM0_0 (Memref.isWhole_whole _) _ _ (xblk m c ⟨n + 1, h⟩) (wblk m c ⟨n + 1, h⟩) (bblk m c ⟨n + 1, h⟩) (outsAt0 m c n (Nat.lt_of_succ_lt h)).2) (ix2 p q)).trans ?_
        refine (update_at m c ⟨n + 1, h⟩ _ p q).trans ?_
        rw [ih]
        exact step
      · rw [outsAt0_B m c ⟨n + 1, h⟩ h0 h1]
        dsimp only
        refine (congrFun (acc_middle (F := Ideal) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) scM0_0 (Memref.isWhole_whole _) _ _ (xblk m c ⟨n + 1, h⟩) (wblk m c ⟨n + 1, h⟩) (bblk m c ⟨n + 1, h⟩) (outsAt0 m c n (Nat.lt_of_succ_lt h)).2) (ix2 p q)).trans ?_
        refine (update_at m c ⟨n + 1, h⟩ _ p q).trans ?_
        rw [ih]
        exact step

/-- THE OUTPUT BLOCK at a position `≡ 3 (mod 4)`: all four contributions plus the bias entry. -/
theorem out_block (c : Dev nD) (t : Fin cfg0.N) (h3 : t.val % 4 = 3) (p : Fin 512) (q : Fin 1024) :
    (outsAt0 m c t.val t.isLt).1 (ix2 p q)
      = (∑ kb ∈ Finset.range 4,
          blockTerm (xarr m c) (warr m c) (512 * (t.val / 16) + p.val) (1024 * (t.val / 4 % 4) + q.val) kb)
        + at1 (barr m c) (1024 * (t.val / 4 % 4) + q.val) := by
  have h0 : ¬t.val % 4 = 0 := by omega
  have hs := acc_after m c t.val t.isLt p q
  rw [h3] at hs
  rw [outsAt0_C m c t h0 h3] at hs ⊢
  dsimp only at hs ⊢
  refine (congrFun (out_last (F := Ideal) c (grid0.coords t) (ms0_0 t) (hs0_0 t) (ms0_1 t) (hs0_1 t) (ms0_2 t) (hs0_2 t) (ms0_3 t) (hs0_3 t) scM0_0 (Memref.isWhole_whole _) _ _ (xblk m c t) (wblk m c t) (bblk m c t) (outsAt0 m c (t.val - 1) (Nat.lt_of_le_of_lt (Nat.sub_le _ _) t.isLt)).2) (ix2 p q)).trans ?_
  refine (biased_apply _ (bblk m c t) p q).trans ?_
  rw [bblk_read]
  refine congrArg (· + at1 (barr m c) (1024 * (t.val / 4 % 4) + q.val)) ?_
  refine Eq.trans ?_ hs
  exact (congrFun (acc_last (F := Ideal) c (grid0.coords t) (ms0_0 t) (hs0_0 t) (ms0_1 t) (hs0_1 t) (ms0_2 t) (hs0_2 t) (ms0_3 t) (hs0_3 t) scM0_0 (Memref.isWhole_whole _) _ _ (xblk m c t) (wblk m c t) (bblk m c t) (outsAt0 m c (t.val - 1) (Nat.lt_of_le_of_lt (Nat.sub_le _ _) t.isLt)).2) (ix2 p q)).symm

end Cert.KernelIdeal.BinValue

end
-- ==== Proof.LayerReshape.lean ====
/-
  Flattening the batch and sequence axes, applying the layer row by row, and unflattening is the layer on the input
  as given: row `2048·a + s` of the flattened input is row `(a, s)` of the input, and the reshapes keep row-major
  positions.
-/
import proofs.«175344_j81063212745415_1_alg».proof.Proof.BinSpec
import Idealize.ShloMosaic.Lib.Pipeline.Value

noncomputable section

open scoped BigOperators

namespace Cert.BinLinear

open Idealize.ShloMosaic Idealize.ShloMosaic.ValueIdx Idealize.ShloMosaic.Pipeline

theorem layer_reshape (x : (⟨3, ![8, 2048, 4096]⟩ : Shape).Idx → EReal) (w : (⟨2, ![4096, 4096]⟩ : Shape).Idx → EReal)
    (b : (⟨1, ![4096]⟩ : Shape).Idx → EReal)
    (h1 : (⟨3, ![8, 2048, 4096]⟩ : Shape).ShapeCasts ⟨2, ![16384, 4096]⟩)
    (h2 : (⟨2, ![16384, 4096]⟩ : Shape).ShapeCasts ⟨3, ![8, 2048, 4096]⟩) :
    shapeCast ⟨3, ![8, 2048, 4096]⟩ (layer2 (shapeCast ⟨2, ![16384, 4096]⟩ x h1) w b) h2 = layer3 x w b := by
  funext j
  obtain ⟨a, s, o, rfl⟩ : ∃ (a : Fin 8) (s : Fin 2048) (o : Fin 4096), j = ix3 a s o := ⟨j 0, j 1, j 2, eq_ix3 j⟩
  have hr : 2048 * a.val + s.val < 16384 := by omega
  refine (shapeCast_apply _ h2 (ix3 a s o) (ix2 (⟨2048 * a.val + s.val, hr⟩ : Fin 16384) o) ?_).trans ?_
  · rw [Shape.rowMajor_val_two, Shape.rowMajor_val_three]
    show (2048 * a.val + s.val) * 4096 + o.val = (a.val * 2048 + s.val) * 4096 + o.val
    omega
  rw [layer2_apply, layer3_apply]
  refine congrArg (· + b (ix1 o)) (Finset.sum_congr rfl fun k _ => ?_)
  refine congrArg (· * sgn (w (ix2 o k))) ?_
  refine shapeCast_apply x h1 (ix2 (⟨2048 * a.val + s.val, hr⟩ : Fin 16384) k) (ix3 a s k) ?_
  rw [Shape.rowMajor_val_three, Shape.rowMajor_val_two]
  show (a.val * 2048 + s.val) * 4096 + k.val = (2048 * a.val + s.val) * 4096 + k.val
  omega

end Cert.BinLinear

end
-- ==== Proof.Final.lean ====
/-
  From blocks to the result.  The output array is written back once per pair (row block, output-feature block), at
  the position of that pair's last column block, and what is written there is that block of the flattened layer.  The
  `32 × 4` blocks tile the `[16384, 4096]` array, so after the run the array is the flattened layer; the one host
  operation after the region reshapes it to `[8, 2048, 4096]`, and the arguments are left as launched.
-/
import proofs.«175344_j81063212745415_1_alg».proof.Proof.Accum
import proofs.«175344_j81063212745415_1_alg».proof.Proof.LayerReshape

noncomputable section

open scoped BigOperators
open Idealize.ShloMosaic Idealize.ShloMosaic.TcCoe Idealize.SL.Sem Idealize.ShloMosaic.ValueIdx
open Idealize.ShloMosaic.Pipeline (Dat)

namespace Cert.KernelIdeal.BinValue

open Cert.KernelIdeal Cert.KernelIdeal.Gen Cert.BinLinear

variable (m : (ℓ : Loc nD τ sig) → Buf (Elt Ideal) ℓ) (ρ : Dev nD → PrngReg)

/-- The flattened layer of the arrays as the region finds them. -/
abbrev flatLayer (c : Dev nD) : FVec Ideal S16384x4096 .f32 := layer2 (xarr m c) (warr m c) (barr m c)

/-- The output block at a position `≡ 3 (mod 4)`, at any index of the block. -/
theorem out_block_idx (c : Dev nD) (t : Fin cfg0.N) (h3 : t.val % 4 = 3) (y : S512x1024.Idx) :
    (outsAt0 m c t.val t.isLt).1 y
      = (∑ kb ∈ Finset.range 4,
          blockTerm (xarr m c) (warr m c) (512 * (t.val / 16) + (y 0).val) (1024 * (t.val / 4 % 4) + (y 1).val) kb)
        + at1 (barr m c) (1024 * (t.val / 4 % 4) + (y 1).val) := by
  obtain ⟨p, q, rfl⟩ : ∃ (p : Fin 512) (q : Fin 1024), y = ix2 p q := ⟨y 0, y 1, eq_ix2 y⟩
  exact out_block m c t h3 p q

/-- WHAT A WRITE-BACK HOLDS: at a position that writes the output back, that block of the flattened layer. -/
theorem flushed_eq (c : Dev nD) (t : Fin cfg0.N) (hf : (cfg0.win 3).flush t = true) :
    (dats m 0 c).flushed 3 t = ((cfg0.win 3).blk t).view.read (Elt Ideal) (flatLayer m c) := by
  have h3 : t.val % 4 = 3 := (flush0_3 t).mp hf
  obtain ⟨-, -, -, -, -, e5, e6⟩ := grid_index t
  show (cfg0.win 3).cut (grid0.coords t) ((dats m 0 c).after 3 t) = _
  rw [after0_3]
  funext y
  show (outsAt0 m c t.val t.isLt).1 y = flatLayer m c (((cfg0.win 3).blk t).view.emb y)
  refine (out_block_idx m c t h3 y).trans ?_
  refine (layer2_nat (xarr m c) (warr m c) (barr m c) _ _ _ ?_ ?_).symm
  · show win0_3.index t (0 : Fin 2) * 512 + 1 * (y 0).val = _
    rw [e5]; omega
  · show win0_3.index t (1 : Fin 2) * 1024 + 1 * (y 1).val = _
    rw [e6]; omega

/-- An index of the output array is in position `t`'s block iff each coordinate is in the block's range. -/
theorem mem_out_blk (t : Fin cfg0.N) (i : S16384x4096.Idx) :
    i ∈ ((cfg0.win 3).blk t).view.set ↔ ∀ a : Fin 2, win0_3.index t a * S512x1024.size a ≤ (i a).val
      ∧ (i a).val < win0_3.index t a * S512x1024.size a + S512x1024.size a := by
  show i ∈ ((View.whole main_v1).slice (win0_3.rect t)).set ↔ _
  rw [View.set_slice_whole, Rect.mem_set_unit]
  exact Iff.rfl

/-- Every index of the output array is in the block of a position that writes back: row block `i₀ / 512`,
    output-feature block `i₁ / 1024`, last column block. -/
theorem covered (i : S16384x4096.Idx) :
    ∃ t : Fin cfg0.N, (cfg0.win 3).flush t = true ∧ i ∈ ((cfg0.win 3).blk t).view.set := by
  have hi0 : (i 0).val < 16384 := (i 0).isLt
  have hi1 : (i 1).val < 4096 := (i 1).isLt
  have hN : cfg0.N = 512 := N_0
  have hlt : 16 * ((i 0).val / 512) + 4 * ((i 1).val / 1024) + 3 < cfg0.N := by rw [hN]; omega
  obtain ⟨-, -, -, -, -, e5, e6⟩ := grid_index ⟨16 * ((i 0).val / 512) + 4 * ((i 1).val / 1024) + 3, hlt⟩
  refine ⟨⟨16 * ((i 0).val / 512) + 4 * ((i 1).val / 1024) + 3, hlt⟩, (flush0_3 _).mpr (by dsimp only; omega), ?_⟩
  rw [mem_out_blk]
  intro a
  match a with
  | ⟨0, _⟩ =>
    show win0_3.index _ (0 : Fin 2) * 512 ≤ (i 0).val ∧ (i 0).val < win0_3.index _ (0 : Fin 2) * 512 + 512
    rw [e5]; dsimp only; omega
  | ⟨1, _⟩ =>
    show win0_3.index _ (1 : Fin 2) * 1024 ≤ (i 1).val ∧ (i 1).val < win0_3.index _ (1 : Fin 2) * 1024 + 1024
    rw [e6]; dsimp only; omega

/-- THE OUTPUT ARRAY after the run is the flattened layer. -/
theorem final_out (c : Dev nD) : (dats m 0 c).arrAt 3 cfg0.N = flatLayer m c :=
  (dats m 0 c).arrAt_eq_of_cover 3 (flatLayer m c) (flushed_eq m c) covered

/-- The host operation after the region reshapes that array; in terms of the launch contents it is the layer on
    the input as given. -/
theorem tail_result (c : Dev nD) :
    Pipeline.afterTail₀ cfgs (dats m) 0 (V0 m) [hostOps1] c main_v2
      = layer3 (m ((c : Thread nD τ).loc main_arg0)) (m ((c : Thread nD τ).loc main_arg1)) (m ((c : Thread nD τ).loc main_arg2)) := by
  unfold Pipeline.afterTail₀
  show StableHlo.after hostOps1 _ (Proc.devRef .tc main_v2) = _
  after_results
  have e : Pipeline.withArrays (cfgs 0).spec c (V0 m c) (fun w => (dats m 0 c).arrAt w (cfgs 0).N) (Proc.devRef .tc main_v1)
      = flatLayer m c :=
    (Pipeline.withArrays_arr spec0 launch0.win.arr_inj c _ _ 3).trans (final_out m c)
  rw [e]
  refine Eq.trans ?_ (layer_reshape (m ((c : Thread nD τ).loc main_arg0)) (m ((c : Thread nD τ).loc main_arg1))
    (m ((c : Thread nD τ).loc main_arg2)) shapeCasts_S8x2048x4096_S16384x4096 shapeCasts_S16384x4096_S8x2048x4096)
  rw [← xarr_eq m c, ← warr_eq m c, ← barr_eq m c]
  rfl

/-- THE RUN, READ: every weakly fair execution of the idealized kernel ends with the result at the layer of the launch
    contents and the three arguments as launched. -/
theorem run : θ_run defs (onTc (τ := τ) (main (F := Ideal))) ⟨m, fun _ => 0, ρ⟩ fun r => ∀ c : Dev nD,
      r.2.mem ((c.tc : Thread nD τ).loc main_v2)
        = layer3 (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v2 (Pipeline.mem_restRefs_of main_v2 (by decide) (by decide))).trans (tail_result m c),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c)))⟩)
    (run_main m ρ)

end Cert.KernelIdeal.BinValue

end
-- ==== Proof.RefValue.lean ====
/-
  The reference program's result, entry by entry, is the sign-weighted linear layer.
  The reference forms its weight as `w + (sgn w - w)` (the straight-through estimator's forward value) and contracts the
  input's last axis with the weight's last axis; with every weight a real number the weight is `sgn w` exactly, and the
  bias is broadcast along the batch and sequence axes.
-/
import proofs.«175344_j81063212745415_1_alg».proof.Defs
import proofs.«175344_j81063212745415_1_alg».proof.Proof.Gen.ReferenceIdeal.Run
import proofs.«175344_j81063212745415_1_alg».proof.Proof.Gen.ReferenceIdeal.Read
import proofs.«175344_j81063212745415_1_alg».proof.Proof.BinSpec

noncomputable section

open scoped BigOperators
open Idealize.ShloMosaic Idealize.ShloMosaic.TcCoe Idealize.ShloMosaic.ValueIdx

namespace Cert.ReferenceIdeal.BinRef

open Cert.ReferenceIdeal Cert.ReferenceIdeal.Gen Cert.ReferenceIdeal.Read Cert.BinLinear

/-- With real weights the reference's last stage is the layer on the input as given. -/
theorem ref_eq_layer (x0 : (⟨S8x2048x4096, .f32⟩ : BufTy).Contents (Elt Ideal)) (x1 : (⟨S4096x4096, .f32⟩ : BufTy).Contents (Elt Ideal))
    (x2 : (⟨S4096, .f32⟩ : BufTy).Contents (Elt Ideal)) (hw : ∀ i, x1 i ≠ ⊤ ∧ x1 i ≠ ⊥) :
    val_main_v9 (F := Ideal) x0 x1 x2 = layer3 x0 x1 x2 := by
  funext i
  obtain ⟨a, s, o, rfl⟩ : ∃ (a : Fin 8) (s : Fin 2048) (o : Fin 4096), i = ix3 a s o := ⟨i 0, i 1, i 2, eq_ix3 i⟩
  have el : ∀ k : Fin 4096, lidx_main_v6 (ix3 a s o) k = ix3 a s k := fun k => funext fun d => by
    match d with
    | ⟨0, _⟩ => rfl
    | ⟨1, _⟩ => rfl
    | ⟨2, _⟩ => rfl
  have er : ∀ k : Fin 4096, ridx_main_v6 (ix3 a s o) k = ix2 o k := fun k => funext fun d => by
    match d with
    | ⟨0, _⟩ => rfl
    | ⟨1, _⟩ => rfl
  have eb : idx_main_v7 (idx_main_v8 (ix3 a s o)) = ix1 o := funext fun d => by
    match d with
    | ⟨0, _⟩ => rfl
  rw [val_main_v9_apply, val_main_v6_apply, val_main_v8_apply, val_main_v7_apply, eb, layer3_apply, Ideal.addf_def]
  refine congrArg (· + x2 (ix1 o)) (Finset.sum_congr rfl fun k _ => ?_)
  rw [el, er, val_main_v5_apply, val_main_v4_apply, val_main_v3_apply, Ideal.addf_def, Ideal.subf_def,
    add_sub_self_of_real _ _ (hw _).1 (hw _).2]
  rfl

end Cert.ReferenceIdeal.BinRef

end
-- ==== Proof.Finite.lean ====
/-
  What the precondition gives the proof: every weight is a real number.  The precondition is the conjunction of three
  "all entries have absolute value below +∞" tests, one per input; the middle one, read at one entry of the weight,
  says `max w (-w) < ⊤`, which excludes both infinities.
-/
import proofs.«175344_j81063212745415_1_alg».proof.Defs
import proofs.«175344_j81063212745415_1_alg».proof.Proof.Gen.Pre_finite_inputs
import Idealize.ShloMosaic.Lib.ReduceAll
import Idealize.ShloMosaic.Lib.ValueIdx
import Idealize.ShloMosaic.Lib.Pipeline.Value
import Idealize.ShloMosaic.Lib.Affine

noncomputable section

open Idealize.ShloMosaic Idealize.ShloMosaic.TcCoe Idealize.ShloMosaic.ValueIdx

namespace Cert.Pre_finite_inputs.BinFinite

open Cert.Pre_finite_inputs

/-- The scalar shape has one index. -/
instance : Subsingleton S_.Idx := ⟨fun a b => funext fun d => d.elim0⟩

/-- An extended real whose absolute value is below `+∞` is neither infinity. -/
theorem real_of_abs_lt_top (v : EReal)
    (h : FloatOps.cmpf (F := Ideal) .olt (FloatOps.hostAbsf (F := Ideal) (φ := .f32) v) (Ideal.ofBits .f32 0x7F800000#32) = 1#1) :
    v ≠ ⊤ ∧ v ≠ ⊥ := by
  have htop : Ideal.ofBits .f32 0x7F800000#32 = (⊤ : EReal) := by simp [Ideal.ofBits, Ideal.ieee]
  rw [htop] at h
  induction v using EReal.rec with
  | bot => exact absurd h (by simp [FloatOps.cmpf, FloatOps.hostAbsf, FloatOps.absf, Ideal.cmp])
  | coe r => exact ⟨EReal.coe_ne_top r, EReal.coe_ne_bot r⟩
  | top => exact absurd h (by simp [FloatOps.cmpf, FloatOps.hostAbsf, FloatOps.absf, Ideal.cmp])

/-- Under the precondition every entry of the weight is a real number. -/
theorem weight_real (x : FVec Ideal S8x2048x4096 .f32) (w : FVec Ideal S4096x4096 .f32) (b : FVec Ideal S4096 .f32)
    (h : fn (F := Ideal) x w b = fun _ => 1#1) (i : S4096x4096.Idx) : w i ≠ ⊤ ∧ w i ≠ ⊥ := by
  have h0 := congrFun h ix0
  dsimp only [fn] at h0
  obtain ⟨h1, -⟩ := IntOp.andi_eq_one.mp h0
  obtain ⟨-, h7⟩ := IntOp.andi_eq_one.mp h1
  have hi := Host.reduce_andi_all _ _ _ _ _ h7 i
  refine real_of_abs_lt_top (w i) ?_
  refine Eq.trans ?_ hi
  rw [cmpf_apply]
  congr 1

end Cert.Pre_finite_inputs.BinFinite

end
-- ==== Proof.lean ====
/-
  A linear layer with sign-binarized weights, as a tiled accelerator kernel and as a plain array program:
  `out[a, s, o] = (∑ k, x[a, s, k] · sgn w[o, k]) + bias[o]`, with `sgn v = +1` for `v ≥ 0` and `-1` otherwise.

  The kernel flattens the input to `[16384, 4096]`, walks a `32 × 4 × 4` grid of (row block, output-feature block,
  column block), keeps a running `512 × 1024` block that it zeroes at the first column block, extends by
  `x_blk · sgn(w_blk)ᵀ` at every column block, and writes out with the bias added at the last; a reshape restores
  `[8, 2048, 4096]`.  The reference forms the weight as `w + (sgn w - w)` and contracts the whole last axis at once.
  Over the extended reals the two agree because `w + (sgn w - w) = sgn w` for a real `w` (this is where the
  precondition that the weight is finite is used), a sum over 4096 columns is the sum of its four blocks of 1024, and
  narrowing an operand to bf16 changes nothing there.  The ideal pass rewrote nothing, so the kernel's idealization
  is the kernel's own text and that conjunct is trivial; the three frames are the generated frame runs and the
  reference's generated run.
-/
import proofs.«175344_j81063212745415_1_alg».proof.Defs
import proofs.«175344_j81063212745415_1_alg».proof.Proof.Gen.Kernel
import proofs.«175344_j81063212745415_1_alg».proof.Proof.Gen.Kernel.Skeleton
import proofs.«175344_j81063212745415_1_alg».proof.Proof.Gen.Kernel.Launch
import proofs.«175344_j81063212745415_1_alg».proof.Proof.Gen.Kernel.Points
import proofs.«175344_j81063212745415_1_alg».proof.Proof.Gen.Kernel.Frame
import proofs.«175344_j81063212745415_1_alg».proof.Proof.Gen.KernelIdeal
import proofs.«175344_j81063212745415_1_alg».proof.Proof.Gen.KernelIdeal.Skeleton
import proofs.«175344_j81063212745415_1_alg».proof.Proof.Gen.KernelIdeal.Launch
import proofs.«175344_j81063212745415_1_alg».proof.Proof.Gen.KernelIdeal.Points
import proofs.«175344_j81063212745415_1_alg».proof.Proof.Gen.KernelIdeal.Frame
import proofs.«175344_j81063212745415_1_alg».proof.Proof.Gen.ReferenceIdeal
import proofs.«175344_j81063212745415_1_alg».proof.Proof.Gen.ReferenceIdeal.Run
import proofs.«175344_j81063212745415_1_alg».proof.Proof.Gen.ReferenceIdeal.Read
import proofs.«175344_j81063212745415_1_alg».proof.Proof.Gen.Pre_finite_inputs
import proofs.«175344_j81063212745415_1_alg».proof.Proof.Final
import proofs.«175344_j81063212745415_1_alg».proof.Proof.RefValue
import proofs.«175344_j81063212745415_1_alg».proof.Proof.Finite
import Idealize.ShloMosaic.Adequacy
import Idealize.ShloMosaic.Init

noncomputable section

namespace Cert.Proof

open Idealize.ShloMosaic Idealize.SL.Sem

/-- The word-level kernel runs and leaves its arguments as launched. -/
theorem frame_kernel : Cert.frame_Kernel := fun m ρ _ => Cert.Kernel.Gen.frame m ρ

/-- So does the kernel read over the extended reals. -/
theorem frame_kernel_ideal : Cert.frame_KernelIdeal := fun m ρ _ => Cert.KernelIdeal.Gen.frame m ρ

/-- The reference's run, with its result forgotten, is its frame. -/
theorem frame_reference : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- From memories that agree on the arguments, both programs end with the layer of those arguments: the kernel's
    blocks assemble to it, and the reference's straight-through weight is the sign of a real weight. -/
theorem algebraic : Cert.algebraic_KernelIdeal_ReferenceIdeal := by
  intro m ρ m' ρ' hpre hagree
  refine ⟨_, Cert.KernelIdeal.BinValue.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2, Cert.ReferenceIdeal.Read.val_main_v9_eq]
  exact Cert.ReferenceIdeal.BinRef.ref_eq_layer _ _ _
    (fun i => Cert.Pre_finite_inputs.BinFinite.weight_real _ _ _ (hpre c) i)

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
